-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S64x64 : Shape := ⟨2, ![64, 64]⟩
abbrev S64 : Shape := ⟨1, ![64]⟩
abbrev S2000000 : Shape := ⟨1, ![2000000]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2000000x64 .f32) (main_arg1 : FVec F S64x64 .f32) (main_arg2 : FVec F S64 .f32) (main_arg3 : FVec F S64 .f32) (main_arg4 : FVec F S64 .f32) (main_arg5 : IVec S2000000 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S2000000x64 : Shape := ⟨2, ![2000000, 64]⟩
abbrev S64x64 : Shape := ⟨2, ![64, 64]⟩
abbrev S64 : Shape := ⟨1, ![64]⟩
abbrev S2000000 : Shape := ⟨1, ![2000000]⟩
abbrev S1x64 : Shape := ⟨2, ![1, 64]⟩
abbrev S16000x64 : Shape := ⟨2, ![16000, 64]⟩
abbrev S16000 : Shape := ⟨1, ![16000]⟩
abbrev S16000x1 : Shape := ⟨2, ![16000, 1]⟩

abbrev nBuf : Space → Nat
  | .hbm => 10
  | .vmem => 8
  | .smem => 0
  | _ => 0

abbrev bufTy : (tb : Table) → Fin (tcTables nBuf tb) → BufTy
  | .hbm, ⟨0, _⟩ => ⟨S2000000x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S2000000, .i32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S2000000x64, .f32⟩
  | .local _ .vmem, ⟨0, _⟩ => ⟨S16000x64, .f32⟩
  | .local _ .vmem, ⟨1, _⟩ => ⟨S16000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S16000x64, .f32⟩
  | .local _ .vmem, ⟨7, _⟩ => ⟨S16000x64, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  reduces_S16000x64_S16000 : S16000x64.Reduces [1] S16000
  shapeCasts_S16000_S16000x1 : S16000.ShapeCasts S16000x1
  broadcasts_S16000x1_S16000x64 : S16000x1.Broadcasts S16000x64
  dot_S16000x64_S64x64_S16000x64_1_0_0_1_n_n_wf : DotDims.WF S16000x64 S64x64 S16000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S2000000x64.size a
  hwx0_0 : ∀ i : grid0.Coords, EltTy.bits .f32 = 32 ∨ (Rect.block (s := S2000000x64) S16000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x64.size a ≤ S2000000x64.size a
  hwx0_5 : ∀ i : grid0.Coords, EltTy.bits .f32 = 32 ∨ (Rect.block (s := S2000000x64) S16000x64.size (cc0_transform_5 i) (hinb0_5 i)).WholeWords (EltTy.packing .f32)

variable [Facts₀]

def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf

abbrev win0_0 : Pipeline.Window sig grid0 :=
  Pipeline.Window.ofSpec (Memref.whole main_arg0) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S16000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S64x64 : Shape := ⟨2, ![64, 64]⟩
abbrev S64 : Shape := ⟨1, ![64]⟩
abbrev S2000000 : Shape := ⟨1, ![2000000]⟩
abbrev S1x64 : Shape := ⟨2, ![1, 64]⟩
abbrev S_ : Shape := ⟨0, ![]⟩
abbrev S2000000x1 : Shape := ⟨2, ![2000000, 1]⟩

abbrev nBuf : Space → Nat
  | .hbm => 46
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S2000000, .i32⟩
  | .hbm, ⟨6, _⟩ => ⟨S2000000x64, .f32⟩
  | .hbm, ⟨7, _⟩ => ⟨S1x64, .f32⟩
  | .hbm, ⟨8, _⟩ => ⟨S2000000x64, .f32⟩
  | .hbm, ⟨9, _⟩ => ⟨S2000000x64, .f32⟩
  | .hbm, ⟨10, _⟩ => ⟨S_, .f32⟩
  | .hbm, ⟨11, _⟩ => ⟨S2000000, .f32⟩
  | .hbm, ⟨12, _⟩ => ⟨S2000000x1, .f32⟩
  | .hbm, ⟨13, _⟩ => ⟨S_, .f32⟩
  | .hbm, ⟨14, _⟩ => ⟨S2000000x1, .f32⟩
  | .hbm, ⟨15, _⟩ => ⟨S2000000x1, .f32⟩
  | .hbm, ⟨16, _⟩ => ⟨S2000000x64, .f32⟩
  | .hbm, ⟨17, _⟩ => ⟨S2000000x64, .f32⟩
  | .hbm, ⟨18, _⟩ => ⟨S2000000x64, .f32⟩
  | .hbm, ⟨19, _⟩ => ⟨S_, .f32⟩
  | .hbm, ⟨20, _⟩ => ⟨S2000000, .f32⟩
  | .hbm, ⟨21, _⟩ => ⟨S2000000x1, .f32⟩
  | .hbm, ⟨22, _⟩ => ⟨S_, .f32⟩
  | .hbm, ⟨23, _⟩ => ⟨S2000000x1, .f32⟩
  | .hbm, ⟨24, _⟩ => ⟨S2000000x1, .f32⟩
  | .hbm, ⟨25, _⟩ => ⟨S2000000x64, .f32⟩
  | .hbm, ⟨26, _⟩ => ⟨S2000000x64, .f32⟩
  | .hbm, ⟨27, _⟩ => ⟨S_, .f32⟩
  | .hbm, ⟨28, _⟩ => ⟨S2000000x1, .f32⟩
  | .hbm, ⟨29, _⟩ => ⟨S2000000x1, .f32⟩
  | .hbm, ⟨30, _⟩ => ⟨S2000000x1, .f32⟩
  | .hbm, ⟨31, _⟩ => ⟨S2000000x64, .f32⟩
  | .hbm, ⟨32, _⟩ => ⟨S2000000x64, .f32⟩
  | .hbm, ⟨33, _⟩ => ⟨S1x64, .f32⟩
  | .hbm, ⟨34, _⟩ => ⟨S2000000x64, .f32⟩
  | .hbm, ⟨35, _⟩ => ⟨S2000000x64, .f32⟩
  | .hbm, ⟨36, _⟩ => ⟨S1x64, .f32⟩
  | .hbm, ⟨37, _⟩ => ⟨S2000000x64, .f32⟩
  | .hbm, ⟨38, _⟩ => ⟨S2000000x64, .f32⟩
  | .hbm, ⟨39, _⟩ => ⟨S_, .f32⟩
  | .hbm, ⟨40, _⟩ => ⟨S2000000x64, .f32⟩
  | .hbm, ⟨41, _⟩ => ⟨S2000000x64, .i1⟩
  | .hbm, ⟨42, _⟩ => ⟨S_, .f32⟩
  | .hbm, ⟨43, _⟩ => ⟨S2000000x64, .f32⟩
  | .hbm, ⟨44, _⟩ => ⟨S2000000x64, .f32⟩
  | .hbm, ⟨45, _⟩ => ⟨S2000000x64, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  reducesTo_S2000000x64_S2000000_d1 : S2000000x64.ReducesTo [1] S2000000
  h_S_ : 0 < S_.numel
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S2000000x1_S2000000x64_0_1 : S2000000x1.BroadcastsInDim S2000000x64 (![0, 1] : Fin 2 → Fin S2000000x64.rank)
  bcast_S_S2000000x64 : S_.BroadcastsInDim S2000000x64 (![] : Fin 0 → Fin S2000000x64.rank)
  dot_S2000000x64_S64x64_S2000000x64_1_1_0_0_n_n_wf : DotDims.WF S2000000x64 S64x64 S2000000x64 [1] [1] [0] [0] [] []

variable [Facts₀]

def dot_S2000000x64_S64x64_S2000000x64_1_1_0_0_n_n : DotDims S2000000x64 S64x64 S2000000x64 where
  lhsContracting := [1]
  rhsContracting := [1]
  lhsNonContracting := [0]
  rhsNonContracting := [0]
  lhsBatch := []
  rhsBatch := []
  wf := dot_S2000000x64_S64x64_S2000000x64_1_1_0_0_n_n_wf

class Facts : Prop extends Facts₀ where

variable [Facts]
-- ==== Proof.LibColumnOps.lean ====
/-
  Column forms of the layout operations, read at an index. A row-wise normalisation keeps every per-row quantity
  (a row's sum, mean, inverse deviation) as an `[a, 1]` column: a length-`a` vector is cast to that column, the
  column is broadcast back along the rows of an `[a, b]` matrix. Read at an index, the cast column at `(i, u)` is
  the vector at `i`, the broadcast column at `(p, c)` is the column's entry of row `p`, and the column of a
  matrix's row sums at `(p, u)` is the sum over `k` of the matrix at `(p, k)`. As whole functions: a transposed
  matrix is the matrix with its two coordinates exchanged (`swapAxes`), and the cast column of the row sums is
  `rowSums`; each is read at an index given by its coordinates by unfolding.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnOps

open Idealize.ShloMosaic Idealize.ShloMosaic.ValueIdx

section Layout
variable {α : Type}

/-- An `[a]` vector cast to an `[a, 1]` column reads, at `(i, u)`, the vector at `i`: both indices sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix read with its two coordinates exchanged. -/
def swapAxes {a b : ℕ} (x : (⟨2, ![a, b]⟩ : Shape).Idx → α) : (⟨2, ![b, a]⟩ : Shape).Idx → α :=
  fun j => x (ix2 (j 1) (j 0))

/-- At `(j, i)` it reads the matrix at `(i, j)`. -/
theorem swapAxes_apply {a b : ℕ} (x : (⟨2, ![a, b]⟩ : Shape).Idx → α) (j : Fin b) (i : Fin a) :
    swapAxes x (ix2 j i) = x (ix2 i j) := rfl

/-- A transposed matrix, as a whole, is the matrix with its coordinates exchanged. -/
theorem transpose_eq_swapAxes {a b : ℕ} (x : (⟨2, ![a, b]⟩ : Shape).Idx → α)
    (h : (⟨2, ![a, b]⟩ : Shape).Transposes [1, 0] ⟨2, ![b, a]⟩) : transpose ⟨2, ![b, a]⟩ [1, 0] x h = swapAxes x := by
  funext j
  obtain ⟨k, o, rfl⟩ : ∃ (k : Fin b) (o : Fin a), j = ix2 k o := ⟨j 0, j 1, eq_ix2 j⟩
  exact transpose_ix2_apply x h k o

end Layout

/-- The sums of a matrix's rows, kept as an `[a, 1]` column, read at `(p, u)` over the extended reals: the sum over
    `k` of the matrix at `(p, k)` (the reduction's accumulator is the neutral element and adds nothing). -/
theorem rowSums_column_apply {a b : ℕ} {φ : FTy} (y : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ y acc h hφ hacc) hc (ix2 p u) = ∑ k : Fin b, y (ix2 p k) := by
  rw [shapeCast_a_a1_apply, Ideal.multiReduction_add_single]
  refine Finset.sum_congr rfl fun k _ => ?_
  exact congrArg y (funext fun ax => Fin.ext (by match ax with | ⟨0, _⟩ => rfl | ⟨1, _⟩ => rfl))

/-- The column of a matrix's row sums: at `(p, u)` the sum over `k` of the matrix at `(p, k)`. -/
def rowSums {a b : ℕ} {φ : FTy} (y : FVec Ideal ⟨2, ![a, b]⟩ φ) : FVec Ideal ⟨2, ![a, 1]⟩ φ :=
  fun j => ∑ k : Fin b, y (ix2 (j 0) k)

theorem rowSums_apply {a b : ℕ} {φ : FTy} (y : FVec Ideal ⟨2, ![a, b]⟩ φ) (p : Fin a) (u : Fin 1) :
    rowSums y (ix2 p u) = ∑ k : Fin b, y (ix2 p k) := rfl

/-- The sums over the columns, cast to a column, are as a whole the column of row sums. -/
theorem shapeCast_multiReduction_eq_rowSums {a b : ℕ} {φ : FTy} (y : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) :
    shapeCast ⟨2, ![a, 1]⟩ (multiReduction .add [1] ⟨1, ![a]⟩ y acc h hφ hacc) hc = rowSums y := by
  funext j
  obtain ⟨p, u, rfl⟩ : ∃ (p : Fin a) (u : Fin 1), j = ix2 p u := ⟨j 0, j 1, eq_ix2 j⟩
  exact rowSums_column_apply y acc h hφ hacc hc p u

end Cert.ColumnOps

end
-- ==== Proof.RowSpec.lean ====
/-
  The function both programs compute on ONE row of the input, over the extended reals.

  For a row `x` of 64 entries, a 64 × 64 weight matrix `W` (row `o` holds the weights of output `o`), a bias `b`, a
  scale `g` and a shift `be`:
    y o   = (∑ k, x k · W o k) + b o                      the linear layer
    mean  = (∑ j, y j) / 64                               the row's mean
    c j   = y j − mean                                    the centred row
    r     = rsqrt ((∑ j, c j · c j) / 64 + ε)             the inverse deviation
    z o   = c o · r · g o + be o                          the normalised, scaled and shifted entry
    out o = z o if z o ≥ 0, else s · z o                  the leaky rectifier
  The constants `64`, `ε` and `s` are kept as the float patterns both programs print (0x42800000, 0x3727C5AC,
  0x3E4CCCCD): the same pattern denotes the same number on both sides and is never evaluated. Division and the
  reciprocal square root are the total operations of the extended reals (`Ideal.div`, `Ideal.rsqrt`); a row is the
  same function of its own entries wherever it sits, which is why the grouping of rows by graph plays no part.
-/
import Idealize.ShloMosaic.PureOps.Ideal

noncomputable section

namespace Cert.RowSpec

open Idealize.ShloMosaic

/-- The linear layer on one row: the row's inner product with row `o` of the weights, plus the bias. -/
def lin (x : Fin 64 → EReal) (W : Fin 64 → Fin 64 → EReal) (b : Fin 64 → EReal) (o : Fin 64) : EReal :=
  (∑ k : Fin 64, x k * W o k) + b o

/-- The mean of a row of 64 entries: their sum over what the pattern of `64.0` denotes. -/
def mean (y : Fin 64 → EReal) : EReal :=
  Ideal.div (∑ j : Fin 64, y j) (Ideal.ofBits .f32 0x42800000#32)

/-- The row with its mean taken off. -/
def centred (y : Fin 64 → EReal) (j : Fin 64) : EReal := y j - mean y

/-- One over the row's deviation: the reciprocal square root of the mean square of the centred row plus `ε`. -/
def invDev (y : Fin 64 → EReal) : EReal :=
  Ideal.rsqrt (mean (fun j => centred y j * centred y j) + Ideal.ofBits .f32 0x3727C5AC#32)

/-- The normalised entry, scaled and shifted. -/
def normalised (y g be : Fin 64 → EReal) (o : Fin 64) : EReal := centred y o * invDev y * g o + be o

/-- The leaky rectifier: the entry itself where it is at least zero, the slope times it elsewhere. -/
def leaky (z : EReal) : EReal :=
  Scalar.select (Ideal.cmp .oge z (Ideal.ofBits .f32 0x00000000#32)) z (Ideal.ofBits .f32 0x3E4CCCCD#32 * z)

/-- Output entry `o` of the row. -/
def rowOut (x : Fin 64 → EReal) (W : Fin 64 → Fin 64 → EReal) (b g be : Fin 64 → EReal) (o : Fin 64) : EReal :=
  leaky (normalised (lin x W b) g be o)

end Cert.RowSpec

end
-- ==== Proof.KernelRow.lean ====
/-
  The kernel's body on one tile of 16000 rows, read at an entry.

  The body takes the tile `x0` (16000 × 64), the weights `x1` (64 × 64, row `o` the weights of output `o`), and the
  bias, scale and shift as 1 × 64 rows `x2`, `x3`, `x4`. Its one stored value, read at `(p, o)`, is the row function
  `RowSpec.rowOut` of row `p` of the tile: the matrix product with the transposed weights is, at `(p, o)`, the sum
  over `k` of `x0 (p, k) · x1 (o, k)` (the change of format is the identity on the extended reals and the product
  accumulates into zero); the row sums are kept as columns and broadcast back along the rows, so every later
  operation at `(p, o)` reads row `p` only.
-/
import proofs.«100013_j73607149518999_1_alg».proof.Proof.Gen.KernelIdeal.Skeleton
import proofs.«100013_j73607149518999_1_alg».proof.Proof.LibColumnOps
import proofs.«100013_j73607149518999_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.ColumnOps Cert.RowSpec

/-! ## The matrix product's operand indices

The product contracts axis 1 of the tile with axis 0 of the transposed weights: at output `(p, o)` and contraction
position `k` the left operand is read at `(p, k)` and the right at `(k, o)`. One lemma per operand axis. -/

theorem lhs_dot_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem lhs_dot_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem rhs_dot_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem rhs_dot_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- The product into the zero accumulator, read at `(p, o)`: the sum over `k` of the left operand at `(p, k)` times the
    right operand at `(k, o)`. -/
theorem matmul_apply_entry (l : FVec Ideal S16000x64 .bf16) (r : FVec Ideal S64x64 .bf16) (p : Fin 16000) (o : Fin 64) :
    matmul dot_S16000x64_S64x64_S16000x64_1_0_0_1_n_n none l r (constant S16000x64 .f32 0x00000000#32) (ix2 p o)
      = ∑ k : Fin 64, l (ix2 p k) * r (ix2 k o) := by
  simp only [matmul]
  rw [Ideal.matmul_constant_zero_apply, ← Equiv.sum_comp (ValueIdx.contrEquiv1 dot_S16000x64_S64x64_S16000x64_1_0_0_1_n_n 64 rfl rfl).symm]
  refine Finset.sum_congr rfl fun k _ => ?_
  have hk := ValueIdx.contrEquiv1_symm_val dot_S16000x64_S64x64_S16000x64_1_0_0_1_n_n 64 rfl rfl k
  have el : dot_S16000x64_S64x64_S16000x64_1_0_0_1_n_n.lhsIdx (ix2 p o) ((ValueIdx.contrEquiv1 dot_S16000x64_S64x64_S16000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S16000x64_S64x64_S16000x64_1_0_0_1_n_n.rhsIdx (ix2 p o) ((ValueIdx.contrEquiv1 dot_S16000x64_S64x64_S16000x64_1_0_0_1_n_n 64 rfl rfl).symm k) = ix2 k o := funext fun a => Fin.ext (by
    match a with
    | ⟨0, _⟩ => exact (rhs_dot_0 _ _).trans hk
    | ⟨1, _⟩ => exact rhs_dot_1 _ _)
  rw [el, er]

/-- A pattern read as a scalar constant is the pattern's value. -/
theorem scalar_ofBits (φ : FTy) (b : BitVec φ.bits) : Scalar.ofBits (F := Ideal) φ b = Ideal.ofBits φ b := rfl

/-! ## The body's value at an entry -/

/-- The body's stored value at `(p, o)` is the row function of row `p` of the tile, with the weights by rows and the
    bias, scale and shift read off their single rows. -/
theorem pay_apply (x0 : Vec Ideal S16000x64 .f32) (x1 : Vec Ideal S64x64 .f32) (x2 x3 x4 : Vec Ideal S1x64 .f32)
    (p : Fin 16000) (o : Fin 64) :
    k0_pay1 x0 x1 x2 x3 x4 (ix2 p o)
      = rowOut (fun k => x0 (ix2 p k)) (fun j k => x1 (ix2 j k)) (fun j => x2 (ix2 (0 : Fin 1) j))
          (fun j => x3 (ix2 (0 : Fin 1) j)) (fun j => x4 (ix2 (0 : Fin 1) j)) o := by
  unfold k0_pay1
  dsimp only
  rw [transpose_eq_swapAxes]
  erw [shapeCast_multiReduction_eq_rowSums, shapeCast_multiReduction_eq_rowSums]
  simp only [select_apply, cmpf_apply, mulf_apply, addf_apply, subf_apply, divf_apply, broadcast_apply, rsqrt,
    truncf_apply, broadcastTo_a1_ab_apply, broadcastTo_1b_ab_apply, shapeCast_self, rowSums_apply,
    matmul_apply_entry, swapAxes_apply, scalar_ofBits, Ideal.rsqrt_def, Ideal.cmpf_def,
    rowOut, leaky, normalised, invDev, centred, mean, lin]

end Cert.KernelIdeal.RowValue

end
-- ==== Proof.ArraySpec.lean ====
/-
  The whole result as ONE function of the five float arguments: entry `(r, o)` of the 2000000 × 64 result is the
  row function of row `r` of the input. The integer argument (the graph of each row) does not enter: a row's
  normalisation uses that row's own 64 entries only.
-/
import proofs.«100013_j73607149518999_1_alg».proof.Proof.RowSpec
import Idealize.ShloMosaic.Lib.ValueIdx

noncomputable section

namespace Cert.RowSpec

open Idealize.ShloMosaic Idealize.ShloMosaic.ValueIdx

/-- The result array: at `i`, the row function of row `i 0` of the input `X`, with the weights `W` by rows and the
    bias `b`, scale `g` and shift `be` as vectors, at column `i 1`. -/
def arrayOut (X : (⟨2, ![2000000, 64]⟩ : Shape).Idx → EReal) (W : (⟨2, ![64, 64]⟩ : Shape).Idx → EReal)
    (b g be : (⟨1, ![64]⟩ : Shape).Idx → EReal) : (⟨2, ![2000000, 64]⟩ : Shape).Idx → EReal :=
  fun i => rowOut (fun k => X (ix2 (i 0) k)) (fun j k => W (ix2 j k)) (fun j => b (ix1 j)) (fun j => g (ix1 j))
    (fun j => be (ix1 j)) (i 1)

theorem arrayOut_apply (X : (⟨2, ![2000000, 64]⟩ : Shape).Idx → EReal) (W : (⟨2, ![64, 64]⟩ : Shape).Idx → EReal)
    (b g be : (⟨1, ![64]⟩ : Shape).Idx → EReal) (r : Fin 2000000) (o : Fin 64) :
    arrayOut X W b g be (ix2 r o)
      = rowOut (fun k => X (ix2 r k)) (fun j k => W (ix2 j k)) (fun j => b (ix1 j)) (fun j => g (ix1 j))
          (fun j => be (ix1 j)) o := rfl

/-- The row function depends on its arguments only through their values. -/
theorem rowOut_congr {x x' : Fin 64 → EReal} {W W' : Fin 64 → Fin 64 → EReal} {b b' g g' be be' : Fin 64 → EReal} {o o' : Fin 64}
    (hx : x = x') (hW : W = W') (hb : b = b') (hg : g = g') (hbe : be = be') (ho : o = o') :
    rowOut x W b g be o = rowOut x' W' b' g' be' o' := by
  subst hx hW hb hg hbe ho; rfl

end Cert.RowSpec

end
-- ==== Proof.TileArray.lean ====
/-
  From the tiles to the array.

  The grid has 125 points; point `t` reads rows `16000 t … 16000 t + 15999` of the input as its tile, the whole weight
  matrix, and the bias, scale and shift as the single rows the host reshapes them into, and writes back the same rows of
  the result. What it writes back, at `(p, o)` of the tile, is the row function of row `p` of the tile
  (`RowValue.pay_apply`), that is of row `16000 t + p` of the input: block `t` of ONE whole-array function,
  `RowSpec.arrayOut` of the arguments. Every row `r` lies in the block of point `r / 16000`, so the blocks cover the
  result array and it ends holding that function.
-/
import proofs.«100013_j73607149518999_1_alg».proof.Proof.Gen.KernelIdeal.Value
import proofs.«100013_j73607149518999_1_alg».proof.Proof.KernelRow
import proofs.«100013_j73607149518999_1_alg».proof.Proof.ArraySpec
import Idealize.ShloMosaic.Lib.Pipeline.Value
import Idealize.ShloMosaic.Lib.ValueLayout
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo Cert.RowSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One tile -/

/-- What the body leaves in the output tile, as one function of the input tile `x0`, the weights `x1` and the rows
    `x2`, `x3`, `x4`: at `j`, the row function of row `j 0` of the tile at column `j 1`. -/
def tileOut (x0 : Vec Ideal S16000x64 .f32) (x1 : Vec Ideal S64x64 .f32) (x2 x3 x4 : Vec Ideal S1x64 .f32) : Vec Ideal S16000x64 .f32 :=
  fun j => rowOut (fun k => x0 (ix2 (j 0) k)) (fun i k => x1 (ix2 i k)) (fun i => x2 (ix2 (0 : Fin 1) i))
    (fun i => x3 (ix2 (0 : Fin 1) i)) (fun i => x4 (ix2 (0 : Fin 1) i)) (j 1)

/-- The body's one store covers the tile, so the tile after the body is the stored value. -/
theorem out_eq_tileOut (x0 : Vec Ideal S16000x64 .f32) (x1 : Vec Ideal S64x64 .f32) (x2 x3 x4 : Vec Ideal S1x64 .f32) :
    out0_5 x0 x1 x2 x3 x4 = tileOut x0 x1 x2 x3 x4 := by
  unfold out0_5
  rw [View.canon_unit_zero hz]
  simp only [View.ld_unit_zero (S := S16000x64) hz, View.ld_unit_zero (S := S64x64) hz, View.ld_unit_zero (S := S1x64) hz]
  funext j
  obtain ⟨p, o, rfl⟩ : ∃ (p : Fin 16000) (o : Fin 64), j = ix2 p o := ⟨j 0, j 1, eq_ix2 j⟩
  exact RowValue.pay_apply x0 x1 x2 x3 x4 p o

/-! ## What the region finds in the reshaped rows -/

/-- The bias as the region finds it: the bias vector cast to one row. -/
theorem V_bias (c : Dev nD) : (V m c main_v0 : S1x64.Idx → EReal) = shapeCast S1x64 ((m ((c : Thread nD τ).loc main_arg2)) : S64.Idx → EReal) shapeCasts_S64_S1x64 := by
  dsimp only [Gen.V, Gen.hostOps0]; after_results; rfl
/-- The scale likewise. -/
theorem V_scale (c : Dev nD) : (V m c main_v1 : S1x64.Idx → EReal) = shapeCast S1x64 ((m ((c : Thread nD τ).loc main_arg3)) : S64.Idx → EReal) shapeCasts_S64_S1x64 := by
  dsimp only [Gen.V, Gen.hostOps0]; after_results; rfl
/-- The shift likewise. -/
theorem V_shift (c : Dev nD) : (V m c main_v2 : S1x64.Idx → EReal) = shapeCast S1x64 ((m ((c : Thread nD τ).loc main_arg4)) : S64.Idx → EReal) shapeCasts_S64_S1x64 := by
  dsimp only [Gen.V, Gen.hostOps0]; after_results; rfl

/-! ## The windows' blocks -/

/-- The printed index maps over the grid: the input and output tiles are at block `(t, 0)`, every other window at
    block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the input tile at point `t` is row `16000 t + p` of the input. -/
theorem tile_apply (c : Dev nD) (t : Fin cfg0.N) (p : Fin 16000) (k : Fin 64) (r : Fin 2000000) (hr : r.val = t.val * 16000 + p.val) :
    (iblk m c 0 t : Vec Ideal S16000x64 .f32) (ix2 p k) = ((m ((c : Thread nD τ).loc main_arg0)) : S2000000x64.Idx → EReal) (ix2 r k) := by
  obtain ⟨e00, e01, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 16000 + 1 * p.val = r.val; rw [e00, hr]; omega
  | ⟨1, _⟩ => show win0_0.index t (1 : Fin 2) * 64 + 1 * k.val = k.val; rw [e01]; omega

/-- The weights' block at every point is the whole weight matrix. -/
theorem weights_apply (c : Dev nD) (t : Fin cfg0.N) (i k : Fin 64) :
    (iblk m c 1 t : Vec Ideal S64x64 .f32) (ix2 i k) = ((m ((c : Thread nD τ).loc main_arg1)) : S64x64.Idx → EReal) (ix2 i k) := by
  obtain ⟨-, -, e10, e11, -⟩ := idx_facts t
  show V m c main_arg1 (((cfg0.win 1).blk t).view.emb (ix2 i k)) = _
  rw [V_main_arg1]
  refine congrArg _ (funext fun a => Fin.ext ?_)
  match a with
  | ⟨0, _⟩ => show win0_1.index t (0 : Fin 2) * 64 + 1 * i.val = i.val; rw [e10]; omega
  | ⟨1, _⟩ => show win0_1.index t (1 : Fin 2) * 64 + 1 * k.val = k.val; rw [e11]; omega

/-- The bias row's block at every point reads the bias vector. -/
theorem bias_apply (c : Dev nD) (t : Fin cfg0.N) (i : Fin 64) :
    (iblk m c 2 t : Vec Ideal S1x64 .f32) (ix2 (0 : Fin 1) i) = ((m ((c : Thread nD τ).loc main_arg2)) : S64.Idx → EReal) (ix1 i) := by
  obtain ⟨-, -, -, -, e20, e21, -⟩ := idx_facts t
  show V m c main_v0 (((cfg0.win 2).blk t).view.emb (ix2 (0 : Fin 1) i)) = _
  rw [V_bias]
  refine (congrArg _ (funext fun a => Fin.ext ?_)).trans (shapeCast_a_1a_apply _ shapeCasts_S64_S1x64 (0 : Fin 1) i)
  match a with
  | ⟨0, _⟩ => show win0_2.index t (0 : Fin 2) * 1 + 1 * 0 = 0; rw [e20]
  | ⟨1, _⟩ => show win0_2.index t (1 : Fin 2) * 64 + 1 * i.val = i.val; rw [e21]; omega

/-- The scale row's block at every point reads the scale vector. -/
theorem scale_apply (c : Dev nD) (t : Fin cfg0.N) (i : Fin 64) :
    (iblk m c 3 t : Vec Ideal S1x64 .f32) (ix2 (0 : Fin 1) i) = ((m ((c : Thread nD τ).loc main_arg3)) : S64.Idx → EReal) (ix1 i) := by
  obtain ⟨-, -, -, -, -, -, e30, e31, -⟩ := idx_facts t
  show V m c main_v1 (((cfg0.win 3).blk t).view.emb (ix2 (0 : Fin 1) i)) = _
  rw [V_scale]
  refine (congrArg _ (funext fun a => Fin.ext ?_)).trans (shapeCast_a_1a_apply _ shapeCasts_S64_S1x64 (0 : Fin 1) i)
  match a with
  | ⟨0, _⟩ => show win0_3.index t (0 : Fin 2) * 1 + 1 * 0 = 0; rw [e30]
  | ⟨1, _⟩ => show win0_3.index t (1 : Fin 2) * 64 + 1 * i.val = i.val; rw [e31]; omega

/-- The shift row's block at every point reads the shift vector. -/
theorem shift_apply (c : Dev nD) (t : Fin cfg0.N) (i : Fin 64) :
    (iblk m c 4 t : Vec Ideal S1x64 .f32) (ix2 (0 : Fin 1) i) = ((m ((c : Thread nD τ).loc main_arg4)) : S64.Idx → EReal) (ix1 i) := by
  obtain ⟨-, -, -, -, -, -, -, -, e40, e41, -⟩ := idx_facts t
  show V m c main_v2 (((cfg0.win 4).blk t).view.emb (ix2 (0 : Fin 1) i)) = _
  rw [V_shift]
  refine (congrArg _ (funext fun a => Fin.ext ?_)).trans (shapeCast_a_1a_apply _ shapeCasts_S64_S1x64 (0 : Fin 1) i)
  match a with
  | ⟨0, _⟩ => show win0_4.index t (0 : Fin 2) * 1 + 1 * 0 = 0; rw [e40]
  | ⟨1, _⟩ => show win0_4.index t (1 : Fin 2) * 64 + 1 * i.val = i.val; rw [e41]; omega

/-! ## The result array -/

/-- The whole-array function of the arguments as launched. -/
abbrev result (c : Dev nD) : Buf (Elt Ideal) ((c : Thread nD τ).loc main_v3) :=
  arrayOut (m ((c : Thread nD τ).loc main_arg0)) (m ((c : Thread nD τ).loc main_arg1)) (m ((c : Thread nD τ).loc main_arg2)) (m ((c : Thread nD τ).loc main_arg3)) (m ((c : Thread nD τ).loc main_arg4))

/-- WHAT POINT `t` WRITES BACK is block `t` of the whole-array function. -/
theorem flushed_eq (c : Dev nD) (t : Fin cfg0.N) :
    (dats m 0 c).flushed 5 t = ((cfg0.win 5).blk t).view.read (Elt Ideal) (result m c) := by
  have hN : cfg0.N = 125 := N_0
  have ht : t.val < 125 := by have := t.isLt; omega
  obtain ⟨-, -, -, -, -, -, -, -, -, -, e50, e51⟩ := idx_facts t
  refine (Value.flushed5 m c t).trans ?_
  refine (congrArg ((cfg0.win 5).cut (grid0.coords t))
    (out_eq_tileOut (iblk m c 0 t) (iblk m c 1 t) (iblk m c 2 t) (iblk m c 3 t) (iblk m c 4 t))).trans ?_
  funext j
  obtain ⟨p, o, rfl⟩ : ∃ (p : Fin 16000) (o : Fin 64), j = ix2 p o := ⟨j 0, j 1, eq_ix2 j⟩
  have hp : p.val < 16000 := p.isLt
  have he : ((cfg0.win 5).blk t).view.emb (ix2 p o) = ix2 (⟨t.val * 16000 + p.val, by omega⟩ : Fin 2000000) o :=
    funext fun a => Fin.ext (by
      match a with
      | ⟨0, _⟩ => show win0_5.index t (0 : Fin 2) * 16000 + 1 * p.val = t.val * 16000 + p.val; rw [e50]; omega
      | ⟨1, _⟩ => show win0_5.index t (1 : Fin 2) * 64 + 1 * o.val = o.val; rw [e51]; omega)
  show tileOut (iblk m c 0 t) (iblk m c 1 t) (iblk m c 2 t) (iblk m c 3 t) (iblk m c 4 t) (ix2 p o)
    = arrayOut (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 p o))
  rw [he, arrayOut_apply]
  exact rowOut_congr (funext fun k => tile_apply m c t p k _ rfl) (funext fun i => funext fun k => weights_apply m c t i k)
    (funext fun i => bias_apply m c t i) (funext fun i => scale_apply m c t i) (funext fun i => shift_apply m c t i) rfl

/-- An index of the result is in point `t`'s block iff each coordinate is in the block's range on its axis. -/
theorem mem_blk (t : Fin cfg0.N) (i : S2000000x64.Idx) :
    i ∈ ((cfg0.win 5).blk t).view.set ↔ ∀ a : Fin 2, win0_5.index t a * S16000x64.size a ≤ (i a).val ∧ (i a).val < win0_5.index t a * S16000x64.size a + S16000x64.size a := by
  show i ∈ ((View.whole main_v3).slice (win0_5.rect t)).set ↔ _
  rw [View.set_slice_whole, Rect.mem_set_unit]
  exact Iff.rfl

/-- Every index of the result is in the block of the point its row falls in. -/
theorem cover (i : S2000000x64.Idx) : ∃ t : Fin cfg0.N, (cfg0.win 5).flush t = true ∧ i ∈ ((cfg0.win 5).blk t).view.set := by
  have hN : cfg0.N = 125 := N_0
  have hi0 : (i 0).val < 2000000 := (i 0).isLt
  have hi1 : (i 1).val < 64 := (i 1).isLt
  obtain ⟨t, ht⟩ : ∃ t : Fin cfg0.N, t.val = (i 0).val / 16000 := ⟨⟨(i 0).val / 16000, by omega⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 16000 ≤ (i 0).val ∧ (i 0).val < win0_5.index t (0 : Fin 2) * 16000 + 16000
    rw [e50, ht]; omega
  | ⟨1, _⟩ =>
    show win0_5.index t (1 : Fin 2) * 64 ≤ (i 1).val ∧ (i 1).val < win0_5.index t (1 : Fin 2) * 64 + 64
    rw [e51]; omega

/-- THE ARRAY after the run is the whole-array function of the arguments. -/
theorem final (c : Dev nD) : (dats m 0 c).arrAt 5 cfg0.N = result m c :=
  (dats m 0 c).arrAt_eq_of_cover 5 (result m c) (fun t _ => flushed_eq m c t) cover

/-- The kernel's run, read: the result array at the whole-array function of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.RefRow.lean ====
/-
  The reference, read at an entry.

  The reference computes the same chain on the whole 2000000 × 64 array at once: the product of the input with the
  weights contracted over their second axes, plus the bias; each row's mean and mean square as columns, broadcast back;
  the reciprocal square root; scale, shift and the leaky rectifier. Read at `(r, o)`, stage by stage, its result is the
  row function `RowSpec.rowOut` of row `r` of the input. Each of its sums starts from the pattern of zero, which is
  the extended real zero and adds nothing.
-/
import proofs.«100013_j73607149518999_1_alg».proof.Proof.Gen.ReferenceIdeal.Read
import proofs.«100013_j73607149518999_1_alg».proof.Proof.RowSpec
import Idealize.ShloMosaic.Lib.ValueIdx
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx Cert.RowSpec

/-! ## Where each stage reads its operand

The index each layout stage reads its operand at, for an index given by its coordinates: a broadcast of a vector
along the rows keeps the column coordinate, a broadcast of a column along the columns keeps the row coordinate, a sum
over the columns at row `r` and position `k` reads `(r, k)`, and the product at `(r, o)` and position `k` reads the
input at `(r, k)` and the weights at `(o, k)`. -/

theorem lidx_v0 (r : Fin 2000000) (o k : Fin 64) : lidx_main_v0 (ix2 r o) k = ix2 r k :=
  funext fun a => Fin.ext (by match a with | ⟨0, _⟩ => rfl | ⟨1, _⟩ => rfl)
theorem ridx_v0 (r : Fin 2000000) (o k : Fin 64) : ridx_main_v0 (ix2 r o) k = ix2 o k :=
  funext fun a => Fin.ext (by match a with | ⟨0, _⟩ => rfl | ⟨1, _⟩ => rfl)
theorem idx_v1 (u : Fin 1) (o : Fin 64) : idx_main_v1 (ix2 u o) = ix1 o :=
  funext fun a => Fin.ext (by match a with | ⟨0, _⟩ => rfl)
theorem idx_v22 (u : Fin 1) (o : Fin 64) : idx_main_v22 (ix2 u o) = ix1 o :=
  funext fun a => Fin.ext (by match a with | ⟨0, _⟩ => rfl)
theorem idx_v25 (u : Fin 1) (o : Fin 64) : idx_main_v25 (ix2 u o) = ix1 o :=
  funext fun a => Fin.ext (by match a with | ⟨0, _⟩ => rfl)
theorem idx_v2 (r : Fin 2000000) (o : Fin 64) : idx_main_v2 (ix2 r o) = ix2 (0 : Fin 1) o :=
  funext fun a => Fin.ext (by match a with | ⟨0, _⟩ => rfl | ⟨1, _⟩ => rfl)
theorem idx_v23 (r : Fin 2000000) (o : Fin 64) : idx_main_v23 (ix2 r o) = ix2 (0 : Fin 1) o :=
  funext fun a => Fin.ext (by match a with | ⟨0, _⟩ => rfl | ⟨1, _⟩ => rfl)
theorem idx_v26 (r : Fin 2000000) (o : Fin 64) : idx_main_v26 (ix2 r o) = ix2 (0 : Fin 1) o :=
  funext fun a => Fin.ext (by match a with | ⟨0, _⟩ => rfl | ⟨1, _⟩ => rfl)
theorem idx_v4 (r : Fin 2000000) (k : Fin 64) : idx_main_v4 (ix1 r) k = ix2 r k :=
  funext fun a => Fin.ext (by match a with | ⟨0, _⟩ => rfl | ⟨1, _⟩ => rfl)
theorem idx_v11 (r : Fin 2000000) (k : Fin 64) : idx_main_v11 (ix1 r) k = ix2 r k :=
  funext fun a => Fin.ext (by match a with | ⟨0, _⟩ => rfl | ⟨1, _⟩ => rfl)
theorem idx_v5 (r : Fin 2000000) (u : Fin 1) : idx_main_v5 (ix2 r u) = ix1 r :=
  funext fun a => Fin.ext (by match a with | ⟨0, _⟩ => rfl)
theorem idx_v12 (r : Fin 2000000) (u : Fin 1) : idx_main_v12 (ix2 r u) = ix1 r :=
  funext fun a => Fin.ext (by match a with | ⟨0, _⟩ => rfl)
theorem idx_v8 (r : Fin 2000000) (o : Fin 64) : idx_main_v8 (ix2 r o) = ix2 r (0 : Fin 1) :=
  funext fun a => Fin.ext (by match a with | ⟨0, _⟩ => rfl | ⟨1, _⟩ => rfl)
theorem idx_v15 (r : Fin 2000000) (o : Fin 64) : idx_main_v15 (ix2 r o) = ix2 r (0 : Fin 1) :=
  funext fun a => Fin.ext (by match a with | ⟨0, _⟩ => rfl | ⟨1, _⟩ => rfl)
theorem idx_v20 (r : Fin 2000000) (o : Fin 64) : idx_main_v20 (ix2 r o) = ix2 r (0 : Fin 1) :=
  funext fun a => Fin.ext (by match a with | ⟨0, _⟩ => rfl | ⟨1, _⟩ => rfl)

/-! ## The result at an entry -/

/-- The reference's result at `(r, o)` is the row function of row `r` of the input, with the weights by rows. -/
theorem ref_apply (X : (⟨S2000000x64, .f32⟩ : BufTy).Contents (Elt Ideal)) (W : (⟨S64x64, .f32⟩ : BufTy).Contents (Elt Ideal))
    (b g be : (⟨S64, .f32⟩ : BufTy).Contents (Elt Ideal)) (r : Fin 2000000) (o : Fin 64) :
    val_main_v32 (F := Ideal) X W b g be (ix2 r o)
      = rowOut (fun k => X (ix2 r k)) (fun j k => W (ix2 j k)) (fun j => b (ix1 j)) (fun j => g (ix1 j)) (fun j => be (ix1 j)) o := by
  simp only [val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply, val_main_cst_5_apply,
    lidx_v0, ridx_v0, idx_v1, idx_v22, idx_v25, idx_v2, idx_v23, idx_v26, idx_v4, idx_v11, idx_v5, idx_v12, idx_v8, idx_v15, idx_v20,
    Ideal.addf_def, Ideal.subf_def, Ideal.mulf_def, Ideal.hostDivf_def, Ideal.hostUnary_rsqrt_def, Ideal.cmpf_def, Ideal.ofBits_def,
    Ideal.ofBits_zero_f32, zero_add, rowOut, leaky, normalised, invDev, centred, mean, lin]

end Cert.ReferenceIdeal.RowValue

end
-- ==== Proof.RefArray.lean ====
/-
  The reference's result array is the whole-array function `RowSpec.arrayOut` of its arguments: entry by entry it is the
  row function of the entry's row (`RowValue.ref_apply`).
-/
import proofs.«100013_j73607149518999_1_alg».proof.Proof.RefRow
import proofs.«100013_j73607149518999_1_alg».proof.Proof.ArraySpec

noncomputable section

namespace Cert.ReferenceIdeal.ArrayValue

open Cert.ReferenceIdeal Cert.ReferenceIdeal.Gen Cert.ReferenceIdeal.Read Idealize.ShloMosaic Idealize.ShloMosaic.TcCoe Idealize.SL.Sem
open Idealize.ShloMosaic.ValueIdx Cert.RowSpec

/-- The last stage of the reference, as a whole array, is the whole-array function of its five float operands. -/
theorem stage_eq (X : (⟨S2000000x64, .f32⟩ : BufTy).Contents (Elt Ideal)) (W : (⟨S64x64, .f32⟩ : BufTy).Contents (Elt Ideal))
    (b g be : (⟨S64, .f32⟩ : BufTy).Contents (Elt Ideal)) :
    val_main_v32 (F := Ideal) X W b g be = arrayOut X W b g be := by
  funext i
  obtain ⟨r, o, rfl⟩ : ∃ (r : Fin 2000000) (o : Fin 64), i = ix2 r o := ⟨i 0, i 1, eq_ix2 i⟩
  exact RowValue.ref_apply X W b g be r o

/-- The term the reference's run ends at is that function of the arguments as launched. -/
theorem result_eq (m : (ℓ : Loc nD τ sig) → Buf (Elt Ideal) ℓ) (c : Dev nD) :
    Cert.ReferenceIdeal.Value.res_main_v32 m c
      = arrayOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
  (val_main_v32_eq m c).trans (stage_eq _ _ _ _ _)

end Cert.ReferenceIdeal.ArrayValue

end
-- ==== Proof.lean ====
/- A linear layer, a row-wise normalisation over the 64 output features and a leaky rectifier, on 2000000 rows:
   the kernel computes it tile by tile (125 tiles of 16000 rows, the product on bf16 copies of its operands into an f32
   accumulator), the reference on the whole array at once. Over the extended reals a change of format is the identity and a
   product accumulated into zero is the plain sum, so both programs compute, at entry `(r, o)`, ONE function of row `r`
   of the input: `RowSpec.rowOut`. The kernel's side: the body's value at an entry of a tile is that function of the
   tile's row (Proof/KernelRow.lean), the tiles are the blocks of one whole-array function and cover the result
   (Proof/TileArray.lean). The reference's side: its stages read at an entry compose to the same function
   (Proof/RefRow.lean, Proof/RefArray.lean). No law beyond the definitions joins the two sides, so the finiteness of the
   inputs is never used; the rows' grouping by graph (the integer argument) enters neither program's arithmetic.
   The three frames are the generated runs; nothing was rewritten between the kernel and its idealization. -/
import proofs.«100013_j73607149518999_1_alg».proof.Defs
import proofs.«100013_j73607149518999_1_alg».proof.Proof.Gen.Kernel
import proofs.«100013_j73607149518999_1_alg».proof.Proof.Gen.Kernel.Skeleton
import proofs.«100013_j73607149518999_1_alg».proof.Proof.Gen.Kernel.Launch
import proofs.«100013_j73607149518999_1_alg».proof.Proof.Gen.Kernel.Points
import proofs.«100013_j73607149518999_1_alg».proof.Proof.Gen.Kernel.Frame
import proofs.«100013_j73607149518999_1_alg».proof.Proof.Gen.KernelIdeal
import proofs.«100013_j73607149518999_1_alg».proof.Proof.Gen.KernelIdeal.Skeleton
import proofs.«100013_j73607149518999_1_alg».proof.Proof.Gen.KernelIdeal.Launch
import proofs.«100013_j73607149518999_1_alg».proof.Proof.Gen.KernelIdeal.Points
import proofs.«100013_j73607149518999_1_alg».proof.Proof.Gen.KernelIdeal.Frame
import proofs.«100013_j73607149518999_1_alg».proof.Proof.Gen.ReferenceIdeal
import proofs.«100013_j73607149518999_1_alg».proof.Proof.Gen.Pre_finite_inputs
import proofs.«100013_j73607149518999_1_alg».proof.Proof.Gen.KernelIdeal.Value
import proofs.«100013_j73607149518999_1_alg».proof.Proof.Gen.ReferenceIdeal.Run
import proofs.«100013_j73607149518999_1_alg».proof.Proof.Gen.ReferenceIdeal.Read
import proofs.«100013_j73607149518999_1_alg».proof.Proof.TileArray
import proofs.«100013_j73607149518999_1_alg».proof.Proof.RefArray
import Idealize.ShloMosaic.Adequacy
import Idealize.ShloMosaic.Init

noncomputable section

namespace Cert.Proof

open Idealize.ShloMosaic Idealize.SL.Sem Cert.Kernel

/-- Both idealized programs end at the same whole-array function of arguments that agree: the kernel's run gives it block
    by block, the reference's run stage by stage. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.ArrayValue.result_eq, (hagree c).1, (hagree c).2.1, (hagree c).2.2.1, (hagree c).2.2.2.1,
    (hagree c).2.2.2.2.1]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
